-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x20 : Shape := ⟨2, ![4096, 20]⟩
abbrev S4096x100 : Shape := ⟨2, ![4096, 100]⟩
abbrev S4096x50000 : Shape := ⟨2, ![4096, 50000]⟩
abbrev S_ : Shape := ⟨0, ![]⟩

class Facts : Prop where
  bcast_S_S4096x100 : S_.BroadcastsInDim S4096x100 (![] : Fin 0 → Fin S4096x100.rank)
  reducesTo_S4096x100_S_d0_1 : S4096x100.ReducesTo [0, 1] S_
  h_S_ : 0 < S_.numel
  bcast_S_S4096x50000 : S_.BroadcastsInDim S4096x50000 (![] : Fin 0 → Fin S4096x50000.rank)
  reducesTo_S4096x50000_S_d0_1 : S4096x50000.ReducesTo [0, 1] S_

variable [Facts]

def fn_part1 {F : FTy → Type} [FloatOps F] (main_arg5 : FVec F S4096x50000 .f32) (main_v13 : IVec S_ 1) (main_v16 : IVec S4096x100 1) : IVec S_ 1 :=
  let main_c_5 : IVec S_ 1 := constantI S_ 1 1#1
  let main_v17 : IVec S_ 1 := (fun x v => Host.reduce IntOp.andi x v reducesTo_S4096x100_S_d0_1 h_S_) main_v16 main_c_5
  let main_v18 : IVec S_ 1 := andi main_v13 main_v17
  let main_v19 : FVec F S4096x50000 .f32 := Host.absf main_arg5
  let main_cst_6 : FVec F S_ .f32 := constant S_ .f32 0x7F800000#32
  let main_v20 : FVec F S4096x50000 .f32 := broadcastInDim S4096x50000 ![] bcast_S_S4096x50000 main_cst_6
  let main_v21 : IVec S4096x50000 1 := cmpf .olt main_v19 main_v20
  let main_c_7 : IVec S_ 1 := constantI S_ 1 1#1
  let main_v22 : IVec S_ 1 := (fun x v => Host.reduce IntOp.andi x v reducesTo_S4096x50000_S_d0_1 h_S_) main_v21 main_c_7
  let main_v23 : IVec S_ 1 := andi main_v18 main_v22
  main_v23

def fn {F : FTy → Type} [FloatOps F] (main_arg0 : IVec S4096x20 32) (main_arg1 : FVec F S4096x100 .f32) (main_arg2 : FVec F S4096x100 .f32) (main_arg3 : FVec F S4096x100 .f32) (main_arg4 : FVec F S4096x100 .f32) (main_arg5 : FVec F S4096x50000 .f32) : IVec S_ 1 :=
  let main_v0 : FVec F S4096x100 .f32 := Host.absf main_arg1
  let main_cst : FVec F S_ .f32 := constant S_ .f32 0x7F800000#32
  let main_v1 : FVec F S4096x100 .f32 := broadcastInDim S4096x100 ![] bcast_S_S4096x100 main_cst
  let main_v2 : IVec S4096x100 1 := cmpf .olt main_v0 main_v1
  let main_c : IVec S_ 1 := constantI S_ 1 1#1
  let main_v3 : IVec S_ 1 := (fun x v => Host.reduce IntOp.andi x v reducesTo_S4096x100_S_d0_1 h_S_) main_v2 main_c
  let main_v4 : FVec F S4096x100 .f32 := Host.absf main_arg2
  let main_cst_0 : FVec F S_ .f32 := constant S_ .f32 0x7F800000#32
  let main_v5 : FVec F S4096x100 .f32 := broadcastInDim S4096x100 ![] bcast_S_S4096x100 main_cst_0
  let main_v6 : IVec S4096x100 1 := cmpf .olt main_v4 main_v5
  let main_c_1 : IVec S_ 1 := constantI S_ 1 1#1
  let main_v7 : IVec S_ 1 := (fun x v => Host.reduce IntOp.andi x v reducesTo_S4096x100_S_d0_1 h_S_) main_v6 main_c_1
  let main_v8 : IVec S_ 1 := andi main_v3 main_v7
  let main_v9 : FVec F S4096x100 .f32 := Host.absf main_arg3
  let main_cst_2 : FVec F S_ .f32 := constant S_ .f32 0x7F800000#32
  let main_v10 : FVec F S4096x100 .f32 := broadcastInDim S4096x100 ![] bcast_S_S4096x100 main_cst_2
  let main_v11 : IVec S4096x100 1 := cmpf .olt main_v9 main_v10
  let main_c_3 : IVec S_ 1 := constantI S_ 1 1#1
  let main_v12 : IVec S_ 1 := (fun x v => Host.reduce IntOp.andi x v reducesTo_S4096x100_S_d0_1 h_S_) main_v11 main_c_3
  let main_v13 : IVec S_ 1 := andi main_v8 main_v12
  let main_v14 : FVec F S4096x100 .f32 := Host.absf main_arg4
  let main_cst_4 : FVec F S_ .f32 := constant S_ .f32 0x7F800000#32
  let main_v15 : FVec F S4096x100 .f32 := broadcastInDim S4096x100 ![] bcast_S_S4096x100 main_cst_4
  let main_v16 : IVec S4096x100 1 := cmpf .olt main_v14 main_v15
  fn_part1 (F := F) main_arg5 main_v13 main_v16
-- ==== Kernel.lean ====
abbrev S4096x20 : Shape := ⟨2, ![4096, 20]⟩
abbrev S4096x100 : Shape := ⟨2, ![4096, 100]⟩
abbrev S4096x50000 : Shape := ⟨2, ![4096, 50000]⟩
abbrev S_ : Shape := ⟨0, ![]⟩
abbrev S4096x20x1 : Shape := ⟨3, ![4096, 20, 1]⟩
abbrev S1 : Shape := ⟨1, ![1]⟩
abbrev S1x1x1 : Shape := ⟨3, ![1, 1, 1]⟩
abbrev S4096 : Shape := ⟨1, ![4096]⟩
abbrev S4096x1 : Shape := ⟨2, ![4096, 1]⟩
abbrev S1024x1 : Shape := ⟨2, ![1024, 1]⟩
abbrev S1024x100 : Shape := ⟨2, ![1024, 100]⟩
abbrev S1024 : Shape := ⟨1, ![1024]⟩

abbrev nBuf : Space → Nat
  | .hbm => 34
  | .vmem => 12
  | .smem => 0
  | _ => 0

abbrev bufTy : (tb : Table) → Fin (tcTables nBuf tb) → BufTy
  | .hbm, ⟨0, _⟩ => ⟨S4096x20, .i32⟩
  | .hbm, ⟨1, _⟩ => ⟨S4096x100, .f32⟩
  | .hbm, ⟨2, _⟩ => ⟨S4096x100, .f32⟩
  | .hbm, ⟨3, _⟩ => ⟨S4096x100, .f32⟩
  | .hbm, ⟨4, _⟩ => ⟨S4096x100, .f32⟩
  | .hbm, ⟨5, _⟩ => ⟨S4096x50000, .f32⟩
  | .hbm, ⟨6, _⟩ => ⟨S_, .i32⟩
  | .hbm, ⟨7, _⟩ => ⟨S4096x20, .i32⟩
  | .hbm, ⟨8, _⟩ => ⟨S4096x20, .i1⟩
  | .hbm, ⟨9, _⟩ => ⟨S_, .i32⟩
  | .hbm, ⟨10, _⟩ => ⟨S4096x20, .i32⟩
  | .hbm, ⟨11, _⟩ => ⟨S4096x20, .i32⟩
  | .hbm, ⟨12, _⟩ => ⟨S4096x20, .i32⟩
  | .hbm, ⟨13, _⟩ => ⟨S4096x20x1, .i32⟩
  | .hbm, ⟨14, _⟩ => ⟨S1, .i32⟩
  | .hbm, ⟨15, _⟩ => ⟨S_, .i32⟩
  | .hbm, ⟨16, _⟩ => ⟨S4096x20x1, .i32⟩
  | .hbm, ⟨17, _⟩ => ⟨S4096x20x1, .i1⟩
  | .hbm, ⟨18, _⟩ => ⟨S1x1x1, .i32⟩
  | .hbm, ⟨19, _⟩ => ⟨S4096x20x1, .i32⟩
  | .hbm, ⟨20, _⟩ => ⟨S4096x20x1, .i1⟩
  | .hbm, ⟨21, _⟩ => ⟨S4096x20x1, .i1⟩
  | .hbm, ⟨22, _⟩ => ⟨S_, .i1⟩
  | .hbm, ⟨23, _⟩ => ⟨S4096x20, .i1⟩
  | .hbm, ⟨24, _⟩ => ⟨S4096x20, .f32⟩
  | .hbm, ⟨25, _⟩ => ⟨S_, .f32⟩
  | .hbm, ⟨26, _⟩ => ⟨S4096x20, .f32⟩
  | .hbm, ⟨27, _⟩ => ⟨S4096x20, .f32⟩
  | .hbm, ⟨28, _⟩ => ⟨S4096x20, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S4096x1, .f32⟩
  | .hbm, ⟨33, _⟩ => ⟨S4096, .f32⟩
  | .local _ .vmem, ⟨0, _⟩ => ⟨S1024x1, .f32⟩
  | .local _ .vmem, ⟨1, _⟩ => ⟨S1024x1, .f32⟩
  | .local _ .vmem, ⟨2, _⟩ => ⟨S1024x100, .f32⟩
  | .local _ .vmem, ⟨3, _⟩ => ⟨S1024x100, .f32⟩
  | .local _ .vmem, ⟨4, _⟩ => ⟨S1024x100, .f32⟩
  | .local _ .vmem, ⟨5, _⟩ => ⟨S1024x100, .f32⟩
  | .local _ .vmem, ⟨6, _⟩ => ⟨S1024x100, .f32⟩
  | .local _ .vmem, ⟨7, _⟩ => ⟨S1024x100, .f32⟩
  | .local _ .vmem, ⟨8, _⟩ => ⟨S1024x100, .f32⟩
  | .local _ .vmem, ⟨9, _⟩ => ⟨S1024x100, .f32⟩
  | .local _ .vmem, ⟨10, _⟩ => ⟨S1024x1, .f32⟩
  | .local _ .vmem, ⟨11, _⟩ => ⟨S1024x1, .f32⟩
  | _, _ => ⟨S4096x20, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v0 : Ref sig .tc := ⟨.hbm, 27, rfl⟩
abbrev main_v1 : Ref sig .tc := ⟨.hbm, 28, rfl⟩
abbrev main_cst : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x100 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S4096x20 : S_.BroadcastsInDim S4096x20 (![] : Fin 0 → Fin S4096x20.rank)
  shapeCasts_S4096x20_S4096x20x1 : S4096x20.ShapeCasts S4096x20x1
  bcast_S_S4096x20x1 : S_.BroadcastsInDim S4096x20x1 (![] : Fin 0 → Fin S4096x20x1.rank)
  bcast_S1_S1x1x1_2 : S1.BroadcastsInDim S1x1x1 (![2] : Fin 1 → Fin S1x1x1.rank)
  bcast_S1x1x1_S4096x20x1_0_1_2 : S1x1x1.BroadcastsInDim S4096x20x1 (![0, 1, 2] : Fin 3 → Fin S4096x20x1.rank)
  reducesTo_S4096x20x1_S4096x20_d2 : S4096x20x1.ReducesTo [2] S4096x20
  h_S_ : 0 < S_.numel
  reducesTo_S4096x20_S4096_d1 : S4096x20.ReducesTo [1] S4096
  bcast_S4096_S4096x1_0 : S4096.BroadcastsInDim S4096x1 (![0] : Fin 1 → Fin S4096x1.rank)
  inb_S1024x100_S1024x100_0_0 : ∀ a, (![0, 0] : Fin 2 → Nat) a + S1024x100.size a ≤ S1024x100.size a
  h_S1024x100 : 0 < S1024x100.numel
  reduces_S1024x100_S1024 : S1024x100.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S4096x1_S4096 : S4096x1.ShapeCasts S4096
  gather_S4096x50000_S4096x20x1_S4096x20_n_1_0_0_1_2_11_wf : GatherDims.WF S4096x50000 S4096x20x1 S4096x20 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1.size a ≤ S4096x1.size a
  hwx0_0 : ∀ i : grid0.Coords, EltTy.bits .f32 = 32 ∨ (Rect.block (s := S4096x1) S1024x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x100.size a ≤ S4096x100.size a
  hwx0_1 : ∀ i : grid0.Coords, EltTy.bits .f32 = 32 ∨ (Rect.block (s := S4096x100) S1024x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x100.size a ≤ S4096x100.size a
  hwx0_2 : ∀ i : grid0.Coords, EltTy.bits .f32 = 32 ∨ (Rect.block (s := S4096x100) S1024x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x100.size a ≤ S4096x100.size a
  hwx0_3 : ∀ i : grid0.Coords, EltTy.bits .f32 = 32 ∨ (Rect.block (s := S4096x100) S1024x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x100.size a ≤ S4096x100.size a
  hwx0_4 : ∀ i : grid0.Coords, EltTy.bits .f32 = 32 ∨ (Rect.block (s := S4096x100) S1024x100.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S4096x1.size a
  hwx0_5 : ∀ i : grid0.Coords, EltTy.bits .f32 = 32 ∨ (Rect.block (s := S4096x1) S1024x1.size (cc0_transform_5 i) (hinb0_5 i)).WholeWords (EltTy.packing .f32)

variable [Facts₀]

def gather_S4096x50000_S4096x20x1_S4096x20_n_1_0_0_1_2_11 : GatherDims S4096x50000 S4096x20x1 S4096x20 where
  offsetDims := []
  collapsedSliceDims := [1]
  operandBatchingDims := [0]
  startIndicesBatchingDims := [0]
  startIndexMap := [1]
  indexVectorDim := 2
  sliceSizes := ![1, 1]
  wf := gather_S4096x50000_S4096x20x1_S4096x20_n_1_0_0_1_2_11_wf

abbrev win0_0 : Pipeline.Window sig grid0 :=
  Pipeline.Window.ofSpec (Memref.whole main_v3) S1024x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x100.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024x100.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x20 : Shape := ⟨2, ![4096, 20]⟩
abbrev S4096x100 : Shape := ⟨2, ![4096, 100]⟩
abbrev S4096x50000 : Shape := ⟨2, ![4096, 50000]⟩
abbrev S_ : Shape := ⟨0, ![]⟩
abbrev S4096x20x1 : Shape := ⟨3, ![4096, 20, 1]⟩
abbrev S1 : Shape := ⟨1, ![1]⟩
abbrev S1x1x1 : Shape := ⟨3, ![1, 1, 1]⟩
abbrev S4096 : Shape := ⟨1, ![4096]⟩

abbrev nBuf : Space → Nat
  | .hbm => 50
  | .vmem => 0
  | .smem => 0
  | _ => 0

abbrev bufTy : (tb : Table) → Fin (tcTables nBuf tb) → BufTy
  | .hbm, ⟨0, _⟩ => ⟨S4096x20, .i32⟩
  | .hbm, ⟨1, _⟩ => ⟨S4096x100, .f32⟩
  | .hbm, ⟨2, _⟩ => ⟨S4096x100, .f32⟩
  | .hbm, ⟨3, _⟩ => ⟨S4096x100, .f32⟩
  | .hbm, ⟨4, _⟩ => ⟨S4096x100, .f32⟩
  | .hbm, ⟨5, _⟩ => ⟨S4096x50000, .f32⟩
  | .hbm, ⟨6, _⟩ => ⟨S_, .i32⟩
  | .hbm, ⟨7, _⟩ => ⟨S4096x20, .i32⟩
  | .hbm, ⟨8, _⟩ => ⟨S4096x20, .i1⟩
  | .hbm, ⟨9, _⟩ => ⟨S_, .i32⟩
  | .hbm, ⟨10, _⟩ => ⟨S4096x20, .i32⟩
  | .hbm, ⟨11, _⟩ => ⟨S4096x20, .i32⟩
  | .hbm, ⟨12, _⟩ => ⟨S4096x20, .i32⟩
  | .hbm, ⟨13, _⟩ => ⟨S4096x20x1, .i32⟩
  | .hbm, ⟨14, _⟩ => ⟨S1, .i32⟩
  | .hbm, ⟨15, _⟩ => ⟨S_, .i32⟩
  | .hbm, ⟨16, _⟩ => ⟨S4096x20x1, .i32⟩
  | .hbm, ⟨17, _⟩ => ⟨S4096x20x1, .i1⟩
  | .hbm, ⟨18, _⟩ => ⟨S1x1x1, .i32⟩
  | .hbm, ⟨19, _⟩ => ⟨S4096x20x1, .i32⟩
  | .hbm, ⟨20, _⟩ => ⟨S4096x20x1, .i1⟩
  | .hbm, ⟨21, _⟩ => ⟨S4096x20x1, .i1⟩
  | .hbm, ⟨22, _⟩ => ⟨S_, .i1⟩
  | .hbm, ⟨23, _⟩ => ⟨S4096x20, .i1⟩
  | .hbm, ⟨24, _⟩ => ⟨S4096x20, .f32⟩
  | .hbm, ⟨25, _⟩ => ⟨S_, .f32⟩
  | .hbm, ⟨26, _⟩ => ⟨S4096x20, .f32⟩
  | .hbm, ⟨27, _⟩ => ⟨S4096x20, .f32⟩
  | .hbm, ⟨28, _⟩ => ⟨S4096x20, .f32⟩
  | .hbm, ⟨29, _⟩ => ⟨S_, .f32⟩
  | .hbm, ⟨30, _⟩ => ⟨S4096, .f32⟩
  | .hbm, ⟨31, _⟩ => ⟨S4096x100, .f32⟩
  | .hbm, ⟨32, _⟩ => ⟨S4096x100, .f32⟩
  | .hbm, ⟨33, _⟩ => ⟨S4096x100, .f32⟩
  | .hbm, ⟨34, _⟩ => ⟨S4096x100, .f32⟩
  | .hbm, ⟨35, _⟩ => ⟨S4096x100, .f32⟩
  | .hbm, ⟨36, _⟩ => ⟨S4096x100, .f32⟩
  | .hbm, ⟨37, _⟩ => ⟨S4096x100, .f32⟩
  | .hbm, ⟨38, _⟩ => ⟨S_, .f32⟩
  | .hbm, ⟨39, _⟩ => ⟨S4096x100, .f32⟩
  | .hbm, ⟨40, _⟩ => ⟨S4096x100, .f32⟩
  | .hbm, ⟨41, _⟩ => ⟨S4096x100, .f32⟩
  | .hbm, ⟨42, _⟩ => ⟨S4096x100, .f32⟩
  | .hbm, ⟨43, _⟩ => ⟨S_, .f32⟩
  | .hbm, ⟨44, _⟩ => ⟨S4096x100, .f32⟩
  | .hbm, ⟨45, _⟩ => ⟨S4096x100, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096, .f32⟩
  | _, _ => ⟨S4096x20, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v0 : Ref sig .tc := ⟨.hbm, 27, rfl⟩
abbrev main_v1 : Ref sig .tc := ⟨.hbm, 28, rfl⟩
abbrev main_cst : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_cst_0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_cst_1 : Ref sig .tc := ⟨.hbm, 43, rfl⟩
abbrev main_v14 : Ref sig .tc := ⟨.hbm, 44, rfl⟩
abbrev main_v15 : Ref sig .tc := ⟨.hbm, 45, rfl⟩
abbrev main_cst_2 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩

abbrev nD : Nat := 1
abbrev τ : Topo := Topo.v7x

variable {F : FTy → Type} [FloatOps F]

class Facts₀ : Prop where
  bcast_S_S4096x20 : S_.BroadcastsInDim S4096x20 (![] : Fin 0 → Fin S4096x20.rank)
  shapeCasts_S4096x20_S4096x20x1 : S4096x20.ShapeCasts S4096x20x1
  bcast_S_S4096x20x1 : S_.BroadcastsInDim S4096x20x1 (![] : Fin 0 → Fin S4096x20x1.rank)
  bcast_S1_S1x1x1_2 : S1.BroadcastsInDim S1x1x1 (![2] : Fin 1 → Fin S1x1x1.rank)
  bcast_S1x1x1_S4096x20x1_0_1_2 : S1x1x1.BroadcastsInDim S4096x20x1 (![0, 1, 2] : Fin 3 → Fin S4096x20x1.rank)
  reducesTo_S4096x20x1_S4096x20_d2 : S4096x20x1.ReducesTo [2] S4096x20
  h_S_ : 0 < S_.numel
  reducesTo_S4096x20_S4096_d1 : S4096x20.ReducesTo [1] S4096
  bcast_S_S4096x100 : S_.BroadcastsInDim S4096x100 (![] : Fin 0 → Fin S4096x100.rank)
  reducesTo_S4096x100_S4096_d1 : S4096x100.ReducesTo [1] S4096
  gather_S4096x50000_S4096x20x1_S4096x20_n_1_0_0_1_2_11_wf : GatherDims.WF S4096x50000 S4096x20x1 S4096x20 [] [1] [0] [1] [0] 2 ![1, 1]

variable [Facts₀]

def gather_S4096x50000_S4096x20x1_S4096x20_n_1_0_0_1_2_11 : GatherDims S4096x50000 S4096x20x1 S4096x20 where
  offsetDims := []
  collapsedSliceDims := [1]
  operandBatchingDims := [0]
  startIndicesBatchingDims := [0]
  startIndexMap := [1]
  indexVectorDim := 2
  sliceSizes := ![1, 1]
  wf := gather_S4096x50000_S4096x20x1_S4096x20_n_1_0_0_1_2_11_wf

class Facts : Prop extends Facts₀ where

variable [Facts]
-- ==== Proof.Spec.lean ====
/-
  The negative evidence lower bound of one example, as ONE function of the argument arrays over the extended reals.

  For example (row) `r`, with `ll r` the log-likelihood of its context words (the sum over the 20 context positions of
  the log of the gathered probability — computed the same way by both programs, so it stays a variable here), the
  value is

      -ll r + ∑ k < 100, ( log (σx / σl) + (σl² + (μl - μx)²) / (2 · σx²) - 1/2 )   at (r, k),

  the diagonal-Gaussian Kullback–Leibler divergence summed over the 100 embedding dimensions. The two float literals
  (2 and 1/2) are kept as the words both programs print: the same word on both sides is never evaluated.
-/
import Idealize.ShloMosaic.PureOps.Ideal
import Idealize.ShloMosaic.Lib.ValueIdx

noncomputable section

namespace Cert.Elbo

open Idealize.ShloMosaic Idealize.ShloMosaic.ValueIdx

/-- The per-example vectors [4096] and the per-example, per-dimension arrays [4096, 100]. -/
abbrev Rows : Shape := ⟨1, ![4096]⟩
abbrev Emb : Shape := ⟨2, ![4096, 100]⟩

/-- One embedding dimension's Kullback–Leibler term of the Gaussian (μl, σl) against (μx, σx):
    log (σx / σl) + (σl² + (μl - μx)²) / (2 σx²) - 1/2, each operation the exact one on the extended reals. -/
def klTerm (μl σl μx σx : EReal) : EReal :=
  Ideal.log (Ideal.div σx σl)
    + Ideal.div (σl * σl + (μl - μx) * (μl - μx)) (Ideal.ofBits .f32 0x40000000#32 * (σx * σx))
    - Ideal.ofBits .f32 0x3F000000#32

/-- Example `r`'s divergence: the terms of its 100 embedding dimensions, summed. -/
def klRow (μl σl μx σx : FVec Ideal Emb .f32) (r : Fin 4096) : EReal :=
  ∑ k : Fin 100, klTerm (μl (ix2 r k)) (σl (ix2 r k)) (μx (ix2 r k)) (σx (ix2 r k))

/-- The negative evidence lower bound per example: minus the log-likelihood plus the divergence. -/
def negElbo (ll : FVec Ideal Rows .f32) (μl σl μx σx : FVec Ideal Emb .f32) : FVec Ideal Rows .f32 :=
  fun i => -(ll i) + klRow μl σl μx σx (i 0)

/-- The same number written as the kernel accumulates it, `(0 - ll) + kl`: subtracting from zero is negation on every
    extended real, the infinities included. -/
theorem zero_sub_add (a s : EReal) : (0 - a) + s = -a + s := by rw [zero_sub]

/-- The same number written as the reference accumulates it, `-ll + (0 + kl)`: the sum starts from zero. -/
theorem neg_add_zero_add (a s : EReal) : -a + (0 + s) = -a + s := by rw [zero_add]

end Cert.Elbo

end
-- ==== Proof.LibKeepdims.lean ====
/-
  Two layout readings used by every reduction that keeps its reduced axis as a unit axis (a row statistic kept as a
  column): a vector [a] viewed as a column [a, 1], and a column [a, 1] spread over the b entries of each row.
-/
import Idealize.ShloMosaic.Lib.Pipeline.Value
import Idealize.ShloMosaic.Lib.ValueIdx

namespace Cert.LibKeepdims

open Idealize.ShloMosaic Idealize.ShloMosaic.ValueIdx

variable {α : Type}

/-- A vector [a] cast to a column [a, 1] reads, at (i, u), the vector's entry i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry in row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Payload.lean ====
/-
  What the kernel body stores, read at one entry.

  At a grid point the body holds four [1024, 100] blocks (μl, σl, μx, σx) and one [1024, 1] column block of
  log-likelihoods, and stores one [1024, 1] column. Its entry in row `r` is

      (0 - ll r) + ∑ k < 100, klTerm (μl, σl, μx, σx at (r, k)) :

  the elementwise operations read at an index are the operations on the entries, the lane reduction into a zero
  accumulator is the sum over the row's 100 entries, and the reshape of the [1024] sums into a [1024, 1] column
  reads the sum of its row.
-/
import proofs.«428377_j27023934226450_3_alg».proof.Proof.Gen.KernelIdeal.Skeleton
import proofs.«428377_j27023934226450_3_alg».proof.Proof.Spec
import proofs.«428377_j27023934226450_3_alg».proof.Proof.LibKeepdims
import Idealize.ShloMosaic.Lib.ValueIdx
import Idealize.ShloMosaic.Lib.Pipeline.Value
import Idealize.ShloMosaic.PureOps.Ideal.Laws

noncomputable section

namespace Cert.KernelIdeal.BodyValue

open Idealize.ShloMosaic Idealize.ShloMosaic.TcCoe Idealize.ShloMosaic.ValueIdx
open Cert.KernelIdeal Cert.KernelIdeal.Gen Cert.Elbo

/-- The row reduction's inserted index: entry `k` of row `r`. -/
theorem lift_row (r : Fin 1024) (k : Fin 100) :
    (reduces_S1024x100_S1024 : S1024x100.Reduces [1] S1024).lift (ix1 r) k = ix2 r k :=
  funext fun a => Fin.ext (by match a with | ⟨0, _⟩ => rfl | ⟨1, _⟩ => rfl)

/-- The lane reduction of a [1024, 100] block into a zero accumulator, at row `r`: the sum of the row's 100 entries. -/
theorem row_sum (src : FVec Ideal S1024x100 .f32) (hacc : (0x00000000#32 : BitVec 32) = 0x00000000#32) (r : Fin 1024) :
    multiReduction .add [1] S1024 src 0x00000000#32 reduces_S1024x100_S1024 (.inl rfl) hacc (ix1 r)
      = ∑ k : Fin 100, src (ix2 r k) :=
  (Ideal.multiReduction_add_single src 0x00000000#32 reduces_S1024x100_S1024 (.inl rfl) hacc (ix1 r)).trans
    (Finset.sum_congr rfl fun k _ => congrArg src (lift_row r k))

/-- The stored column at row `r`: zero minus the row's log-likelihood, plus the row's divergence. -/
theorem pay_apply (v0 v1 v2 v3 : Vec Ideal S1024x100 .f32) (v19 : Vec Ideal S1024x1 .f32) (r : Fin 1024) (u : Fin 1) :
    k0_pay1 v0 v1 v2 v3 v19 (ix2 r u)
      = (0 - v19 (ix2 r u)) + ∑ k : Fin 100, klTerm (v0 (ix2 r k)) (v1 (ix2 r k)) (v2 (ix2 r k)) (v3 (ix2 r k)) := by
  unfold k0_pay1
  dsimp only
  rw [addf_apply, subf_apply, broadcast_apply, shapeCast_self, Cert.LibKeepdims.shapeCast_a_a1_apply]
  exact congrArg₂ (· + ·) (congrArg (· - _) Ideal.ofBits_zero_f32)
    ((row_sum _ _ r).trans (Finset.sum_congr rfl fun k _ => rfl))

end Cert.KernelIdeal.BodyValue

end
-- ==== Proof.KernelArray.lean ====
/-
  From the kernel's blocks to its whole output array.

  The grid has four points; at point `t` every window holds rows `1024 t … 1024 t + 1023` of its array (the four
  [4096, 100] embedding arrays, and the [4096, 1] column of log-likelihoods the host lines before the region wrote),
  and the body's stored column is written back to the same rows of the [4096, 1] output. So the output array ends
  holding ONE function of the arrays as the region finds them: at row `i`,

      (0 - ll i) + ∑ k < 100, klTerm (μl, σl, μx, σx at (i, k)).

  The four row blocks tile the 4096 rows: the point that covers row `i` is `i / 1024`.
-/
import proofs.«428377_j27023934226450_3_alg».proof.Proof.Gen.KernelIdeal.Frame
import proofs.«428377_j27023934226450_3_alg».proof.Proof.Payload
import Idealize.ShloMosaic.Lib.Pipeline.Value
import Idealize.ShloMosaic.Lib.ValueIdx

noncomputable section

namespace Cert.KernelIdeal.ArrayValue

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.BodyValue Cert.Elbo

variable (m : (ℓ : Loc nD τ sig) → Buf (Elt Ideal) ℓ)

theorem hz : (![0, 0] : Fin 2 → Nat) = fun _ => 0 := funext fun a => by fin_cases a <;> rfl

/-! ## The arrays as the region finds them, at their literal types -/

/-- The [4096, 1] column of log-likelihoods (written by the host lines before the region). -/
abbrev llCol (c : Dev nD) : Vec Ideal S4096x1 .f32 := V m c main_v3
/-- The four [4096, 100] embedding arrays, in the windows' order: μl, σl, μx, σx. -/
abbrev muL (c : Dev nD) : Vec Ideal S4096x100 .f32 := V m c main_arg1
abbrev sigL (c : Dev nD) : Vec Ideal S4096x100 .f32 := V m c main_arg2
abbrev muX (c : Dev nD) : Vec Ideal S4096x100 .f32 := V m c main_arg3
abbrev sigX (c : Dev nD) : Vec Ideal S4096x100 .f32 := V m c main_arg4

/-- What the output array ends holding, row by row. -/
def column (c : Dev nD) : Vec Ideal S4096x1 .f32 := fun j =>
  (0 - llCol m c (ix2 (j 0) (0 : Fin 1))) + klRow (muL m c) (sigL m c) (muX m c) (sigX m c) (j 0)

/-! ## The index maps, decided over the grid: every window's block index at point `t` is (t, 0) -/

theorem idx_all : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) :=
  (by decide +kernel : ∀ t : Fin grid0.N, _)

/-- Row `r` of the block at point `t` is row `1024 t + r` of the array. -/
def rowOf (t : Fin cfg0.N) (r : Fin 1024) : Fin 4096 :=
  ⟨t.val * 1024 + r.val, by have h := t.isLt; have hN : cfg0.N = 4 := N_0; have := r.isLt; omega⟩

/-! ## Each input block read at an entry -/

theorem ll_blk (c : Dev nD) (t : Fin cfg0.N) (r : Fin 1024) (u : Fin 1) :
    (iblk m c 0 t : Vec Ideal S1024x1 .f32) (ix2 r u) = llCol m c (ix2 (rowOf t r) (0 : Fin 1)) := by
  obtain ⟨⟨e0, e1⟩, -⟩ := idx_all t
  unfold iblk
  rw [View.read_apply]
  show V m c main_v3 _ = V m c main_v3 _
  congr 1
  funext a
  apply Fin.ext
  match a with
  | ⟨0, _⟩ => show win0_0.index t (0 : Fin 2) * 1024 + 1 * r.val = t.val * 1024 + r.val; rw [e0]; omega
  | ⟨1, _⟩ => show win0_0.index t (1 : Fin 2) * 1 + 1 * u.val = 0; rw [e1]; have := u.isLt; omega

theorem muL_blk (c : Dev nD) (t : Fin cfg0.N) (r : Fin 1024) (k : Fin 100) :
    (iblk m c 1 t : Vec Ideal S1024x100 .f32) (ix2 r k) = muL m c (ix2 (rowOf t r) k) := by
  obtain ⟨-, ⟨e0, e1⟩, -⟩ := idx_all t
  unfold iblk
  rw [View.read_apply]
  show V m c main_arg1 _ = V m c main_arg1 _
  congr 1
  funext a
  apply Fin.ext
  match a with
  | ⟨0, _⟩ => show win0_1.index t (0 : Fin 2) * 1024 + 1 * r.val = t.val * 1024 + r.val; rw [e0]; omega
  | ⟨1, _⟩ => show win0_1.index t (1 : Fin 2) * 100 + 1 * k.val = k.val; rw [e1]; omega

theorem sigL_blk (c : Dev nD) (t : Fin cfg0.N) (r : Fin 1024) (k : Fin 100) :
    (iblk m c 2 t : Vec Ideal S1024x100 .f32) (ix2 r k) = sigL m c (ix2 (rowOf t r) k) := by
  obtain ⟨-, -, ⟨e0, e1⟩, -⟩ := idx_all t
  unfold iblk
  rw [View.read_apply]
  show V m c main_arg2 _ = V m c main_arg2 _
  congr 1
  funext a
  apply Fin.ext
  match a with
  | ⟨0, _⟩ => show win0_2.index t (0 : Fin 2) * 1024 + 1 * r.val = t.val * 1024 + r.val; rw [e0]; omega
  | ⟨1, _⟩ => show win0_2.index t (1 : Fin 2) * 100 + 1 * k.val = k.val; rw [e1]; omega

theorem muX_blk (c : Dev nD) (t : Fin cfg0.N) (r : Fin 1024) (k : Fin 100) :
    (iblk m c 3 t : Vec Ideal S1024x100 .f32) (ix2 r k) = muX m c (ix2 (rowOf t r) k) := by
  obtain ⟨-, -, -, ⟨e0, e1⟩, -⟩ := idx_all t
  unfold iblk
  rw [View.read_apply]
  show V m c main_arg3 _ = V m c main_arg3 _
  congr 1
  funext a
  apply Fin.ext
  match a with
  | ⟨0, _⟩ => show win0_3.index t (0 : Fin 2) * 1024 + 1 * r.val = t.val * 1024 + r.val; rw [e0]; omega
  | ⟨1, _⟩ => show win0_3.index t (1 : Fin 2) * 100 + 1 * k.val = k.val; rw [e1]; omega

theorem sigX_blk (c : Dev nD) (t : Fin cfg0.N) (r : Fin 1024) (k : Fin 100) :
    (iblk m c 4 t : Vec Ideal S1024x100 .f32) (ix2 r k) = sigX m c (ix2 (rowOf t r) k) := by
  obtain ⟨-, -, -, -, ⟨e0, e1⟩, -⟩ := idx_all t
  unfold iblk
  rw [View.read_apply]
  show V m c main_arg4 _ = V m c main_arg4 _
  congr 1
  funext a
  apply Fin.ext
  match a with
  | ⟨0, _⟩ => show win0_4.index t (0 : Fin 2) * 1024 + 1 * r.val = t.val * 1024 + r.val; rw [e0]; omega
  | ⟨1, _⟩ => show win0_4.index t (1 : Fin 2) * 100 + 1 * k.val = k.val; rw [e1]; omega

/-! ## What point `t` writes back is block `t` of `column` -/

/-- The output block's entry (r, u) sits at row `1024 t + r` of the output array. -/
theorem out_emb (t : Fin cfg0.N) (r : Fin 1024) (u : Fin 1) :
    ((cfg0.win 5).blk t).view.emb (ix2 r u) = ix2 (rowOf t r) (0 : Fin 1) := by
  obtain ⟨-, -, -, -, -, ⟨e0, e1⟩⟩ := idx_all t
  funext a
  apply Fin.ext
  match a with
  | ⟨0, _⟩ => show win0_5.index t (0 : Fin 2) * 1024 + 1 * r.val = t.val * 1024 + r.val; rw [e0]; omega
  | ⟨1, _⟩ => show win0_5.index t (1 : Fin 2) * 1 + 1 * u.val = 0; rw [e1]; have := u.isLt; omega

theorem flushed_eq (c : Dev nD) (t : Fin cfg0.N) :
    (dats m 0 c).flushed 5 t = ((cfg0.win 5).blk t).view.read (Elt Ideal) (column m c) := by
  show (cfg0.win 5).cut (grid0.coords t) ((dats m 0 c).after 5 t) = _
  rw [after0_5]
  unfold out0_5
  rw [View.canon_unit_zero hz]
  simp only [View.ld_unit_zero (S := S1024x100) hz, View.ld_unit_zero (S := S1024x1) hz]
  funext y
  obtain ⟨r, u, rfl⟩ : ∃ (r : Fin 1024) (u : Fin 1), y = ix2 r u := ⟨y 0, y 1, eq_ix2 y⟩
  show k0_pay1 (iblk m c 1 t) (iblk m c 2 t) (iblk m c 3 t) (iblk m c 4 t) (iblk m c 0 t) (ix2 r u)
    = column m c (((cfg0.win 5).blk t).view.emb (ix2 r u))
  refine (pay_apply (iblk m c 1 t) (iblk m c 2 t) (iblk m c 3 t) (iblk m c 4 t) (iblk m c 0 t) r u).trans ?_
  rw [out_emb t r u]
  unfold column klRow
  refine congrArg₂ (· + ·) (congrArg (0 - ·) (ll_blk m c t r u)) (Finset.sum_congr rfl fun k _ => ?_)
  rw [muL_blk m c t r k, sigL_blk m c t r k, muX_blk m c t r k, sigX_blk m c t r k]

/-! ## The blocks cover the array -/

theorem mem_blk (t : Fin cfg0.N) (i : S4096x1.Idx) :
    i ∈ ((cfg0.win 5).blk t).view.set ↔ ∀ a : Fin 2, win0_5.index t a * S1024x1.size a ≤ (i a).val ∧ (i a).val < win0_5.index t a * S1024x1.size a + S1024x1.size a := by
  show i ∈ ((View.whole main_v4).slice (win0_5.rect t)).set ↔ _
  rw [View.set_slice_whole, Rect.mem_set_unit]
  exact Iff.rfl

theorem cover (i : S4096x1.Idx) :
    ∃ t : Fin cfg0.N, (cfg0.win 5).flush t = true ∧ i ∈ ((cfg0.win 5).blk t).view.set := by
  have h0 : (i 0).val < 4096 := (i 0).isLt
  have h1 : (i 1).val < 1 := (i 1).isLt
  have hN : cfg0.N = 4 := N_0
  have hlt : (i 0).val / 1024 < cfg0.N := by rw [hN]; omega
  obtain ⟨-, -, -, -, -, ⟨e0, e1⟩⟩ := idx_all ⟨(i 0).val / 1024, hlt⟩
  refine ⟨⟨(i 0).val / 1024, hlt⟩, flush0_5 _, ?_⟩
  rw [mem_blk]
  intro a
  match a with
  | ⟨0, _⟩ =>
    show win0_5.index ⟨(i 0).val / 1024, hlt⟩ (0 : Fin 2) * 1024 ≤ (i 0).val
      ∧ (i 0).val < win0_5.index ⟨(i 0).val / 1024, hlt⟩ (0 : Fin 2) * 1024 + 1024
    rw [e0]; show (i 0).val / 1024 * 1024 ≤ (i 0).val ∧ (i 0).val < (i 0).val / 1024 * 1024 + 1024; omega
  | ⟨1, _⟩ =>
    show win0_5.index ⟨(i 0).val / 1024, hlt⟩ (1 : Fin 2) * 1 ≤ (i 1).val
      ∧ (i 1).val < win0_5.index ⟨(i 0).val / 1024, hlt⟩ (1 : Fin 2) * 1 + 1
    rw [e1]; omega

/-- THE OUTPUT ARRAY after the region: `column` of the arrays as the region finds them. -/
theorem final (c : Dev nD) : (dats m 0 c).arrAt 5 cfg0.N = column m c :=
  (dats m 0 c).arrAt_eq_of_cover 5 (column m c) (fun t _ => flushed_eq m c t) cover

end Cert.KernelIdeal.ArrayValue

end
-- ==== Proof.LibColumn.lean ====
/-
  Two layout readings between a vector [a] and a column [a, 1], the inverse directions of the keepdims forms:
  a column [a, 1] cast to a vector [a] (the reshape that drops a kept unit axis), and a vector [a] spread by
  `broadcast_in_dim` along `dims = [0]` into a column [a, 1] (the reshape that adds one, as jax lowers
  `keepdims=True` on the host).
-/
import Idealize.ShloMosaic.Lib.Pipeline.Value
import Idealize.ShloMosaic.Lib.ValueIdx

namespace Cert.LibColumn

open Idealize.ShloMosaic Idealize.ShloMosaic.ValueIdx

variable {α : Type}

/-- A column [a, 1] cast to a vector [a] reads, at i, the column's entry (i, 0). -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector [a] broadcast along `dims = [0]` into a column [a, 1] reads, at (i, u), the vector's entry i. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

end Cert.LibColumn
-- ==== Proof.KernelHost.lean ====
/-
  The kernel program around its region, and its run read as a value.

  BEFORE the region the host lines compute the log-likelihood of each example: the context indices, a negative one
  wrapped by the vocabulary size 50000, gather one probability per context position out of the example's row of
  `decoded` (a not-a-number fill where an index is out of range); the log of each is summed over the 20 positions;
  and the [4096] vector of sums is spread into the [4096, 1] column the region's first window stages.
  AFTER the region one host line reshapes the [4096, 1] output column into the [4096] result.

  So the program's result at example `i` is the output column's row `i`, which is
  `(0 - logLik i) + ∑ k < 100, klTerm (…)(i, k)`, that is `negElbo` of the log-likelihood and the four arrays:
  subtracting from zero is negation on every extended real.
-/
import proofs.«428377_j27023934226450_3_alg».proof.Proof.KernelArray
import proofs.«428377_j27023934226450_3_alg».proof.Proof.LibColumn
import Idealize.ShloMosaic.Lib.StableHlo.Run

noncomputable section

namespace Cert.KernelIdeal.HostValue

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.KernelIdeal.ArrayValue Cert.Elbo

/-! ## The log-likelihood, as the host lines compute it (any float family) -/

section
variable {F : FTy → Type} [FloatOps F]

/-- The context indices as the gather reads them: a negative index has the vocabulary size 50000 added, and the
    [4096, 20] array is viewed as [4096, 20, 1]. -/
def wrapped (ctx : (⟨S4096x20, .i32⟩ : BufTy).Contents (Elt F)) : (⟨S4096x20x1, .i32⟩ : BufTy).Contents (Elt F) :=
  shapeCast _ (select (cmpi .slt ctx (broadcastInDim S4096x20 ![] bcast_S_S4096x20 (constantI S_ 32 0#32)))
      (addi ctx (broadcastInDim S4096x20 ![] bcast_S_S4096x20 (constantI S_ 32 50000#32))) ctx)
    shapeCasts_S4096x20_S4096x20x1

/-- Whether each (wrapped) index lies in 0 … 49999. -/
def inRange (ctx : (⟨S4096x20, .i32⟩ : BufTy).Contents (Elt F)) : (⟨S4096x20, .i1⟩ : BufTy).Contents (Elt F) :=
  Host.reduce IntOp.andi
    (andi (cmpi .sge (wrapped (F := F) ctx) (broadcastInDim S4096x20x1 ![] bcast_S_S4096x20x1 (constantI S_ 32 0#32)))
      (cmpi .sle (wrapped (F := F) ctx)
        (broadcastInDim S4096x20x1 ![0, 1, 2] bcast_S1x1x1_S4096x20x1_0_1_2
          (broadcastInDim S1x1x1 ![2] bcast_S1_S1x1x1_2 (constantI S1 32 49999#32)))))
    (constantI S_ 1 1#1) reducesTo_S4096x20x1_S4096x20_d2 h_S_

/-- The probability gathered for each context position (the fill word where the index is out of range). -/
def gathered (ctx : (⟨S4096x20, .i32⟩ : BufTy).Contents (Elt F)) (dec : (⟨S4096x50000, .f32⟩ : BufTy).Contents (Elt F)) :
    (⟨S4096x20, .f32⟩ : BufTy).Contents (Elt F) :=
  select (inRange (F := F) ctx)
    (Host.gather gather_S4096x50000_S4096x20x1_S4096x20_n_1_0_0_1_2_11 dec (wrapped (F := F) ctx))
    (broadcastInDim S4096x20 ![] bcast_S_S4096x20 (constant S_ .f32 0x7FC00000#32))

/-- Each example's log-likelihood: the logs of its 20 gathered probabilities, summed from zero. -/
def logLik (ctx : (⟨S4096x20, .i32⟩ : BufTy).Contents (Elt F)) (dec : (⟨S4096x50000, .f32⟩ : BufTy).Contents (Elt F)) :
    (⟨S4096, .f32⟩ : BufTy).Contents (Elt F) :=
  Host.reduceAdd (Host.log (gathered (F := F) ctx dec)) (constant S_ .f32 0x00000000#32) reducesTo_S4096x20_S4096_d1 h_S_

variable (m : (ℓ : Loc nD τ sig) → Buf (Elt F) ℓ)

/-- The column the region's first window stages is the log-likelihood vector spread along `dims = [0]`. -/
theorem V_llCol (c : Dev nD) :
    (V m c main_v3 : (⟨S4096x1, .f32⟩ : BufTy).Contents (Elt F))
      = broadcastInDim S4096x1 ![0] bcast_S4096_S4096x1_0
          (logLik (F := F) (m ((c : Thread nD τ).loc main_arg0)) (m ((c : Thread nD τ).loc main_arg5))) := by
  dsimp only [V, V0]
  simp only [hostOps0, hostOps0_1, List.flatten_cons, List.flatten_nil, List.append_nil, List.cons_append, List.nil_append]
  after_results_simp <;> (try simp only [TRef.ofBuf, TRef.toBuf, cast_eq]) <;> rfl

end

/-! ## The run, at the extended reals -/

variable (m : (ℓ : Loc nD τ sig) → Buf (Elt Ideal) ℓ) (ρ : Dev nD → PrngReg)

/-- The host line after the region: the program's result is the output column reshaped into a vector. -/
theorem tail_eq (c : Dev nD) :
    Pipeline.afterTail₀ cfgs (dats m) 0 (V0 m) [hostOps1] c main_v5
      = shapeCast S4096 (column m c) shapeCasts_S4096x1_S4096 := by
  unfold Pipeline.afterTail₀
  show StableHlo.after hostOps1 _ (Proc.devRef .tc main_v5) = _
  after_results
  rw [(Pipeline.withArrays_arr spec0 launch0.win.arr_inj c _ _ 5).trans (final m c)]
  rfl

/-- The program's result, example by example: `negElbo` of the log-likelihood and the four embedding arrays. -/
theorem result_eq (c : Dev nD) :
    shapeCast S4096 (column m c) shapeCasts_S4096x1_S4096
      = negElbo (logLik (F := Ideal) (m ((c : Thread nD τ).loc main_arg0)) (m ((c : Thread nD τ).loc main_arg5)))
          (m ((c : Thread nD τ).loc main_arg1)) (m ((c : Thread nD τ).loc main_arg2))
          (m ((c : Thread nD τ).loc main_arg3)) (m ((c : Thread nD τ).loc main_arg4)) := by
  funext i
  obtain ⟨r, rfl⟩ : ∃ r : Fin 4096, i = ix1 r := ⟨i 0, eq_ix1 i⟩
  rw [Cert.LibColumn.shapeCast_a1_a_apply]
  unfold column llCol muL sigL muX sigX negElbo
  rw [V_llCol m c, Cert.LibColumn.broadcastInDim_a_a1_apply, V_main_arg1 m c, V_main_arg2 m c, V_main_arg3 m c,
    V_main_arg4 m c]
  exact zero_sub_add _ _

/-- Every weakly fair execution of the kernel program terminates with its result at `negElbo` of the log-likelihood
    and the four embedding arrays as launched, and its six arguments unchanged. -/
theorem run : θ_run defs (onTc (τ := τ) (main (F := Ideal))) ⟨m, fun _ => 0, ρ⟩ fun r => ∀ c : Dev nD,
      r.2.mem ((c.tc : Thread nD τ).loc main_v5)
        = negElbo (logLik (F := Ideal) (m ((c : Thread nD τ).loc main_arg0)) (m ((c : Thread nD τ).loc main_arg5)))
            (m ((c : Thread nD τ).loc main_arg1)) (m ((c : Thread nD τ).loc main_arg2))
            (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v5 (Pipeline.mem_restRefs_of main_v5 (by decide) (by decide))).trans
        ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c)⟩)
    (run_main m ρ)

end Cert.KernelIdeal.HostValue

end
-- ==== Proof.RefSide.lean ====
/-
  The reference's result, read at an example.

  The reference computes, per example `i`, `-ll i + (0 + ∑ k < 100, term (i, k))`: its last three stages are a
  negation, a row sum from a zero initial value and an addition, and each of the fifteen elementwise stages under the
  sum reads, at (i, k), the same operation of the entries there. So its result is `negElbo` of its own
  log-likelihood stage (the gather, log and sum over the context positions, left unopened) and the four arrays.
-/
import proofs.«428377_j27023934226450_3_alg».proof.Proof.RefRead
import proofs.«428377_j27023934226450_3_alg».proof.Proof.Spec
import Idealize.ShloMosaic.Lib.ValueIdx
import Idealize.ShloMosaic.PureOps.Ideal.Laws

noncomputable section

namespace Cert.ReferenceIdeal.RefValue

open Idealize.ShloMosaic Idealize.ShloMosaic.TcCoe Idealize.ShloMosaic.ValueIdx
open Cert.ReferenceIdeal Cert.ReferenceIdeal.Gen Cert.ReferenceIdeal.ReadP Cert.Elbo

/-- The row sum's inserted index: entry `k` of example `i`'s row. -/
theorem idx_row (i : S4096.Idx) (k : Fin 100) : idx_main_v16 i k = ix2 (i 0) k :=
  funext fun a => Fin.ext (by match a with | ⟨0, _⟩ => rfl | ⟨1, _⟩ => rfl)

/-- The stage under the row sum, at an entry, is that entry's Kullback–Leibler term. -/
theorem term_apply (x1 x2 x3 x4 : (⟨S4096x100, .f32⟩ : BufTy).Contents (Elt Ideal)) (j : S4096x100.Idx) :
    val_main_v15 (F := Ideal) x1 x2 x3 x4 j = klTerm (x1 j) (x2 j) (x3 j) (x4 j) := by
  rw [val_main_v15_apply, val_main_v13_apply, val_main_v4_apply, val_main_v3_apply, val_main_v12_apply,
    val_main_v8_apply, val_main_v5_apply, val_main_v7_apply, val_main_v6_apply, val_main_v11_apply,
    val_main_v10_apply, val_main_cst_0_apply, val_main_v9_apply, val_main_v14_apply, val_main_cst_1_apply]
  rfl

/-- The reference's result is the negative evidence lower bound of its log-likelihood stage and the four arrays. -/
theorem result_eq (x0 : (⟨S4096x20, .i32⟩ : BufTy).Contents (Elt Ideal))
    (x1 x2 x3 x4 : (⟨S4096x100, .f32⟩ : BufTy).Contents (Elt Ideal))
    (x5 : (⟨S4096x50000, .f32⟩ : BufTy).Contents (Elt Ideal)) :
    val_main_v18 (F := Ideal) x0 x1 x2 x3 x4 x5 = negElbo (val_main_v2 (F := Ideal) x0 x5) x1 x2 x3 x4 := by
  funext i
  rw [val_main_v18_apply, val_main_v17_apply, val_main_v16_apply, val_main_cst_2_apply]
  show -(val_main_v2 (F := Ideal) x0 x5 i)
      + (Ideal.ofBits .f32 0x00000000#32 + ∑ k : Fin 100, val_main_v15 (F := Ideal) x1 x2 x3 x4 (idx_main_v16 i k))
    = -(val_main_v2 (F := Ideal) x0 x5 i) + klRow x1 x2 x3 x4 (i 0)
  rw [Ideal.ofBits_zero_f32, neg_add_zero_add]
  refine congrArg (_ + ·) (Finset.sum_congr rfl fun k _ => ?_)
  rw [idx_row]
  exact term_apply x1 x2 x3 x4 _

end Cert.ReferenceIdeal.RefValue

end
-- ==== Proof.lean ====
/-
  The negative evidence lower bound per example, kernel against reference, over the extended reals.

  Both programs compute, for each of 4096 examples,

      -ll + ∑ k < 100, ( log (σx / σl) + (σl² + (μl - μx)²) / (2 σx²) - 1/2 ),

  where `ll` is the example's log-likelihood: the sum, over its 20 context words, of the log of the probability
  gathered from its row of `decoded`. The log-likelihood is computed by the SAME host lines in both programs (a
  take-along-axis gather, a log, a row sum), so it is carried as one function of the two arguments it reads and never
  opened. The kernel computes the divergence on four row blocks of 1024 examples and accumulates `(0 - ll) + kl`;
  the reference computes it on whole arrays and accumulates `-ll + (0 + kl)`. On the extended reals subtracting from
  zero is negation and adding to zero is the identity, at the infinities too, so the two are one function
  (`Cert.Elbo.negElbo`) and the inputs' finiteness is not used.

  The kernel's result is read off its frame run: what the body stores at an entry (Proof/Payload.lean), the blocks
  assembled into the output array (Proof/KernelArray.lean), the host lines before and after the region
  (Proof/KernelHost.lean). The reference's result is read off its run stage by stage (Proof/RefSide.lean).
  The ideal pass rewrote nothing, so the idealization claim is trivial.
-/
import proofs.«428377_j27023934226450_3_alg».proof.Defs
import proofs.«428377_j27023934226450_3_alg».proof.Proof.Gen.Kernel
import proofs.«428377_j27023934226450_3_alg».proof.Proof.Gen.Kernel.Frame
import proofs.«428377_j27023934226450_3_alg».proof.Proof.Gen.KernelIdeal
import proofs.«428377_j27023934226450_3_alg».proof.Proof.Gen.KernelIdeal.Frame
import proofs.«428377_j27023934226450_3_alg».proof.Proof.Gen.ReferenceIdeal
import proofs.«428377_j27023934226450_3_alg».proof.Proof.Gen.Pre_finite_inputs
import proofs.«428377_j27023934226450_3_alg».proof.Proof.KernelHost
import proofs.«428377_j27023934226450_3_alg».proof.Proof.RefSide
import Idealize.ShloMosaic.Adequacy
import Idealize.ShloMosaic.Init

noncomputable section

namespace Cert.Proof

open Idealize.ShloMosaic Idealize.ShloMosaic.TcCoe Idealize.SL.Sem

/-- Both programs compute the log-likelihood by the same host lines: the kernel program's term and the reference's
    stage are one function of the context indices and the decoded probabilities, at any float family. -/
theorem logLik_eq {F : FTy → Type} [FloatOps F]
    (ctx : (⟨Cert.KernelIdeal.S4096x20, .i32⟩ : BufTy).Contents (Elt F))
    (dec : (⟨Cert.KernelIdeal.S4096x50000, .f32⟩ : BufTy).Contents (Elt F)) :
    Cert.KernelIdeal.HostValue.logLik (F := F) ctx dec = Cert.ReferenceIdeal.ReadP.val_main_v2 (F := F) ctx dec := rfl

/-- The word-level kernel runs and leaves its arguments unchanged: its generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- From memories agreeing on the six arguments both programs end with the same result: `negElbo` of the
    log-likelihood and the four embedding arrays. -/
theorem algebraic : Cert.algebraic_KernelIdeal_ReferenceIdeal := by
  intro m ρ m' ρ' _ hagree
  refine ⟨_, Cert.KernelIdeal.HostValue.run m ρ, ?_⟩
  refine (θ_run Cert.ReferenceIdeal.defs _ _).mono (fun _ h c => ⟨(h c).1.trans ?_, (h c).2⟩)
    (Cert.ReferenceIdeal.RunP.run (F := Ideal) m' ρ')
  obtain ⟨e0, e1, e2, e3, e4, e5⟩ := hagree c
  rw [Cert.ReferenceIdeal.ReadP.val_main_v18_eq, Cert.ReferenceIdeal.RefValue.result_eq, e0, e1, e2, e3, e4, e5,
    ← logLik_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
